-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S128x128 : Shape := ⟨2, ![128, 128]⟩
abbrev S100000x64 : Shape := ⟨2, ![100000, 64]⟩

abbrev nBuf : Space → Nat
  | .hbm => 98
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S128x128, .f32⟩
  | .hbm, ⟨75, _⟩ => ⟨S128, .f32⟩
  | .hbm, ⟨76, _⟩ => ⟨S100000x128, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x128, .f32⟩
  | .hbm, ⟨86, _⟩ => ⟨S1700000x1, .f32⟩
  | .hbm, ⟨87, _⟩ => ⟨S1700000x128, .f32⟩
  | .hbm, ⟨88, _⟩ => ⟨S1700000x128, .f32⟩
  | .hbm, ⟨89, _⟩ => ⟨S_, .f32⟩
  | .hbm, ⟨90, _⟩ => ⟨S100000x128, .f32⟩
  | .hbm, ⟨91, _⟩ => ⟨S1700000x1, .i32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S100000x64, .f32⟩
  | .hbm, ⟨97, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S128x64_S128x64_S128x128_d1 : Shape.Concatenates [S128x64, S128x64] S128x128 1
  concatenates_S64_S64_S128_d0 : Shape.Concatenates [S64, S64] S128 0
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S100000x128_S100000x64_0_0 : S100000x128.Slices ![0, 0] S100000x64
  slices_S100000x128_S100000x64_0_64 : S100000x128.Slices ![0, 64] S100000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x64, .f32⟩
  | .hbm, ⟨104, _⟩ => ⟨S1700000x1, .f32⟩
  | .hbm, ⟨105, _⟩ => ⟨S1700000x64, .f32⟩
  | .hbm, ⟨106, _⟩ => ⟨S1700000x64, .f32⟩
  | .hbm, ⟨107, _⟩ => ⟨S_, .f32⟩
  | .hbm, ⟨108, _⟩ => ⟨S100000x64, .f32⟩
  | .hbm, ⟨109, _⟩ => ⟨S1700000x1, .i32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_c_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_15 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KSpec.lean ====
/-
  The host side of the kernel's program as functions of whole arrays, in the program's own operations: the edge list with
  self-loops, the degree normalisation, one normalised aggregation (gather the source rows, scale, scatter-add into the target
  rows), the hidden layer, and the second layer on the two projections laid side by side — [Wmu | Wls] in one table of 128
  columns, one aggregation, one bias [bmu | bls], then the left and the right 64 columns as the two results.
-/
import proofs.«134741_j25598005084887_1_alg».proof.KernelIdeal

noncomputable section

namespace Cert.KernelIdeal.Spec

open Idealize.ShloMosaic Cert.KernelIdeal Cert.KernelIdeal.Facts₀

variable {F : FTy → Type} [FloatOps F] [Facts]

/-- The zero word broadcast over a node-by-feature table of 128 columns: what an aggregation starts from. -/
def zeros128 : FVec F S100000x128 .f32 := broadcastInDim S100000x128 ![] bcast_S_S100000x128 (constant S_ .f32 0x00000000#32)

/-- Edge sources with one self-loop per node appended: row 0 of the edge list, then 0 … N − 1. -/
def srcV (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Edge targets with the same self-loops: row 1 of the edge list, then 0 … N − 1. -/
def dstV (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative index counts from the end of the node axis. -/
def wrap (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- An index vector as a one-column table of start indices. -/
def col (v : IVec S1700000 32) : IVec S1700000x1 32 := broadcastInDim S1700000x1 ![0] bcast_S1700000_S1700000x1_0 v

/-- In-degrees (self-loop included): ones added at the targets. -/
def deg (e : IVec S2x1600000 32) : FVec F S100000 .f32 :=
  Host.scatterAdd scatter_S100000_S1700000x1_S1700000_n_0_0_1 (broadcastInDim S100000 ![] bcast_S_S100000 (constant S_ .f32 0x00000000#32)) (col (dstV e)) (broadcastInDim S1700000 ![] bcast_S_S1700000 (constant S_ .f32 0x3F800000#32))

/-- deg^(−1/2) where the degree is positive (the degree taken at least 1 under the root), 0 elsewhere. -/
def dinv (e : IVec S2x1600000 32) : FVec F S100000 .f32 :=
  select (cmpf (F := F) .ogt (deg e) (broadcastInDim S100000 ![] bcast_S_S100000 (constant S_ .f32 0x00000000#32))) (Host.rsqrt (maximumf (deg e) (broadcastInDim S100000 ![] bcast_S_S100000 (constant S_ .f32 0x3F800000#32)))) (broadcastInDim S100000 ![] bcast_S_S100000 (id (constant S_ .f32 0x00000000#32)))

/-- The symmetric normalisation of an edge: dinv at its source times dinv at its target. -/
def nrm (e : IVec S2x1600000 32) : FVec F S1700000 .f32 :=
  mulf (Host.gather gather_S100000_S1700000x1_S1700000_n_0_n_n_0_1_1 (dinv e) (col (wrap (srcV e)))) (Host.gather gather_S100000_S1700000x1_S1700000_n_0_n_n_0_1_1 (dinv e) (col (wrap (dstV e))))

/-- One aggregation over 128 columns: each edge's source row of `L`, scaled by the edge's normalisation, added into its target row. -/
def agg128 (L : FVec F S100000x128 .f32) (e : IVec S2x1600000 32) : FVec F S100000x128 .f32 :=
  Host.scatterAdd scatter_S100000x128_S1700000x1_S1700000x128_1_0_0_1 zeros128 (col (dstV e)) (mulf (Host.gather gather_S100000x128_S1700000x1_S1700000x128_1_0_n_n_0_1_1128 L (col (wrap (srcV e)))) (broadcastInDim S1700000x128 ![0, 1] bcast_S1700000x1_S1700000x128_0_1 (broadcastInDim S1700000x1 ![0] bcast_S1700000_S1700000x1_0 (nrm e))))

/-- A bias of 128 entries repeated down the node axis. -/
def bias128 (b : FVec F S128 .f32) : FVec F S100000x128 .f32 :=
  broadcastInDim S100000x128 ![0, 1] bcast_S1x128_S100000x128_0_1 (broadcastInDim S1x128 ![1] bcast_S128_S1x128_1 b)

/-- The hidden layer from its linear part `L1`: aggregate, add the bias, clip below at 0. -/
def hid (L1 : FVec F S100000x128 .f32) (e : IVec S2x1600000 32) (b1 : FVec F S128 .f32) : FVec F S100000x128 .f32 :=
  maximumf (addf (agg128 L1 e) (bias128 b1)) zeros128

/-- The two projection matrices side by side. -/
def wcat (Wmu Wls : FVec F S128x64 .f32) : FVec F S128x128 .f32 :=
  concatenate S128x128 1 [⟨S128x64, Wmu⟩, ⟨S128x64, Wls⟩] concatenates_S128x64_S128x64_S128x128_d1

/-- The two biases end to end. -/
def bcat (bmu bls : FVec F S64 .f32) : FVec F S128 .f32 :=
  concatenate S128 0 [⟨S64, bmu⟩, ⟨S64, bls⟩] concatenates_S64_S64_S128_d0

/-- The second layer on all 128 columns from its linear part `L2`. -/
def out2 (L2 : FVec F S100000x128 .f32) (e : IVec S2x1600000 32) (bmu bls : FVec F S64 .f32) : FVec F S100000x128 .f32 :=
  addf (agg128 L2 e) (bias128 (bcat bmu bls))

/-- The first result: columns 0 … 63. -/
def resMu (L2 : FVec F S100000x128 .f32) (e : IVec S2x1600000 32) (bmu bls : FVec F S64 .f32) : FVec F S100000x64 .f32 :=
  extractStridedSlice S100000x64 ![0, 0] (out2 L2 e bmu bls) slices_S100000x128_S100000x64_0_0

/-- The second result: columns 64 … 127. -/
def resLs (L2 : FVec F S100000x128 .f32) (e : IVec S2x1600000 32) (bmu bls : FVec F S64 .f32) : FVec F S100000x64 .f32 :=
  extractStridedSlice S100000x64 ![0, 64] (out2 L2 e bmu bls) slices_S100000x128_S100000x64_0_64

end Cert.KernelIdeal.Spec

end
-- ==== Proof.KernelValue.lean ====
/-
  The kernel's run read as values. @main is three stretches of host operations around two pipelined regions; the
  contents of the buffers at each boundary are a fold through the program. Read here, boundary by boundary:
  at region 0's entry the edge list's two endpoint vectors (self-loops appended), the edge normalisation and the
  arguments are the stated functions of the launch memory; region 0 leaves x · W1; the stretch after it computes the
  hidden layer relu(aggregate(x · W1) + b1), the projections side by side [Wmu | Wls] and the biases end to end;
  region 1 leaves hidden · [Wmu | Wls]; the last stretch aggregates that, adds [bmu | bls] and cuts the left and the
  right 64 columns out as the two results. A buffer that a stretch or a region does not write keeps its contents.
-/
import proofs.«134741_j25598005084887_1_alg».proof.Proof.Gen.KernelIdeal.Frame
import proofs.«134741_j25598005084887_1_alg».proof.Proof.KSpec
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

section Stages

variable {F : FTy → Type} [FloatOps F]
variable (m : (ℓ : Loc nD τ sig) → Buf (Elt F) ℓ) (ρ : Dev nD → PrngReg)

/-! ## At region 0's entry -/

/-- The sources vector is the edge list's row 0 with the self-loops appended. -/
theorem W3_v3 (c : Dev nD) : W3 m ρ c (Proc.devRef .tc main_v3) = Spec.srcV (m ((c.tc : Thread nD τ).loc main_arg1)) := by
  dsimp only [W3, W2, W1, W0, hostOps0_2, hostOps0_1, hostOps0]
  after_results_simp
  rfl

/-- The targets vector is the edge list's row 1 with the self-loops appended. -/
theorem W3_v6 (c : Dev nD) : W3 m ρ c (Proc.devRef .tc main_v6) = Spec.dstV (m ((c.tc : Thread nD τ).loc main_arg1)) := by
  dsimp only [W3, W2, W1, W0, hostOps0_2, hostOps0_1, hostOps0]
  after_results_simp
  rfl

/-- The edge normalisation: deg^(−1/2) at the source times deg^(−1/2) at the target. -/
theorem W3_v31 (c : Dev nD) : W3 m ρ c (Proc.devRef .tc main_v31) = Spec.nrm (F := F) (m ((c.tc : Thread nD τ).loc main_arg1)) := by
  dsimp only [W3, W2, W1, W0, hostOps0_2, hostOps0_1, hostOps0]
  after_results_simp
  rfl

/-- No operation before region 0 writes argument 0. -/
theorem W3_arg0 (c : Dev nD) : W3 m ρ c (Proc.devRef .tc main_arg0) = m ((c.tc : Thread nD τ).loc main_arg0) := by
  dsimp only [W3, W2, W1, W0, hostOps0_2, hostOps0_1, hostOps0]
  after_results_simp

/-- No operation before region 0 writes argument 2. -/
theorem W3_arg2 (c : Dev nD) : W3 m ρ c (Proc.devRef .tc main_arg2) = m ((c.tc : Thread nD τ).loc main_arg2) := by
  dsimp only [W3, W2, W1, W0, hostOps0_2, hostOps0_1, hostOps0]
  after_results_simp

/-- No operation before region 0 writes argument 3. -/
theorem W3_arg3 (c : Dev nD) : W3 m ρ c (Proc.devRef .tc main_arg3) = m ((c.tc : Thread nD τ).loc main_arg3) := by
  dsimp only [W3, W2, W1, W0, hostOps0_2, hostOps0_1, hostOps0]
  after_results_simp

/-- No operation before region 0 writes argument 4. -/
theorem W3_arg4 (c : Dev nD) : W3 m ρ c (Proc.devRef .tc main_arg4) = m ((c.tc : Thread nD τ).loc main_arg4) := by
  dsimp only [W3, W2, W1, W0, hostOps0_2, hostOps0_1, hostOps0]
  after_results_simp

/-- No operation before region 0 writes argument 5. -/
theorem W3_arg5 (c : Dev nD) : W3 m ρ c (Proc.devRef .tc main_arg5) = m ((c.tc : Thread nD τ).loc main_arg5) := by
  dsimp only [W3, W2, W1, W0, hostOps0_2, hostOps0_1, hostOps0]
  after_results_simp

/-- No operation before region 0 writes argument 6. -/
theorem W3_arg6 (c : Dev nD) : W3 m ρ c (Proc.devRef .tc main_arg6) = m ((c.tc : Thread nD τ).loc main_arg6) := by
  dsimp only [W3, W2, W1, W0, hostOps0_2, hostOps0_1, hostOps0]
  after_results_simp

/-- No operation before region 0 writes argument 7. -/
theorem W3_arg7 (c : Dev nD) : W3 m ρ c (Proc.devRef .tc main_arg7) = m ((c.tc : Thread nD τ).loc main_arg7) := by
  dsimp only [W3, W2, W1, W0, hostOps0_2, hostOps0_1, hostOps0]
  after_results_simp

/-! ## At region 0's exit: its result array holds what the pipeline leaves, every other buffer is as entered -/

theorem W4_v32 (c : Dev nD) : W4 m ρ c (Proc.devRef .tc main_v32) = (dat0 (V3 m ρ) c).arrAt 2 cfg0.N := W4_arr m ρ c 2

theorem W4_v3 (c : Dev nD) : W4 m ρ c (Proc.devRef .tc main_v3) = Spec.srcV (m ((c.tc : Thread nD τ).loc main_arg1)) :=
  (W4_of_ne m ρ c main_v3 (by decide)).trans (W3_v3 m ρ c)
theorem W4_v6 (c : Dev nD) : W4 m ρ c (Proc.devRef .tc main_v6) = Spec.dstV (m ((c.tc : Thread nD τ).loc main_arg1)) :=
  (W4_of_ne m ρ c main_v6 (by decide)).trans (W3_v6 m ρ c)
theorem W4_v31 (c : Dev nD) : W4 m ρ c (Proc.devRef .tc main_v31) = Spec.nrm (F := F) (m ((c.tc : Thread nD τ).loc main_arg1)) :=
  (W4_of_ne m ρ c main_v31 (by decide)).trans (W3_v31 m ρ c)
theorem W4_arg3 (c : Dev nD) : W4 m ρ c (Proc.devRef .tc main_arg3) = m ((c.tc : Thread nD τ).loc main_arg3) :=
  (W4_of_ne m ρ c main_arg3 (by decide)).trans (W3_arg3 m ρ c)
theorem W4_arg4 (c : Dev nD) : W4 m ρ c (Proc.devRef .tc main_arg4) = m ((c.tc : Thread nD τ).loc main_arg4) :=
  (W4_of_ne m ρ c main_arg4 (by decide)).trans (W3_arg4 m ρ c)
theorem W4_arg5 (c : Dev nD) : W4 m ρ c (Proc.devRef .tc main_arg5) = m ((c.tc : Thread nD τ).loc main_arg5) :=
  (W4_of_ne m ρ c main_arg5 (by decide)).trans (W3_arg5 m ρ c)
theorem W4_arg6 (c : Dev nD) : W4 m ρ c (Proc.devRef .tc main_arg6) = m ((c.tc : Thread nD τ).loc main_arg6) :=
  (W4_of_ne m ρ c main_arg6 (by decide)).trans (W3_arg6 m ρ c)
theorem W4_arg7 (c : Dev nD) : W4 m ρ c (Proc.devRef .tc main_arg7) = m ((c.tc : Thread nD τ).loc main_arg7) :=
  (W4_of_ne m ρ c main_arg7 (by decide)).trans (W3_arg7 m ρ c)

/-! ## At region 1's entry -/

/-- The hidden layer over whatever region 0 left in its result array. -/
theorem W7_v49 (c : Dev nD) :
    W7 m ρ c (Proc.devRef .tc main_v49)
      = Spec.hid (W4 m ρ c (Proc.devRef .tc main_v32)) (m ((c.tc : Thread nD τ).loc main_arg1)) (m ((c.tc : Thread nD τ).loc main_arg3)) := by
  dsimp only [W7, W6, W5, hostOps1_2, hostOps1_1, hostOps1]
  after_results_simp
  rw [W4_v3, W4_v6, W4_v31, W4_arg3]
  rfl

/-- Neither the stretch after region 0 nor the clip writes argument 4. -/
theorem W6_arg4 (c : Dev nD) : W6 m ρ c (Proc.devRef .tc main_arg4) = m ((c.tc : Thread nD τ).loc main_arg4) := by
  dsimp only [W6, W5, hostOps1_1, hostOps1]
  after_results_simp
  exact W4_arg4 m ρ c

/-- Neither the stretch after region 0 nor the clip writes argument 5. -/
theorem W6_arg5 (c : Dev nD) : W6 m ρ c (Proc.devRef .tc main_arg5) = m ((c.tc : Thread nD τ).loc main_arg5) := by
  dsimp only [W6, W5, hostOps1_1, hostOps1]
  after_results_simp
  exact W4_arg5 m ρ c

/-- Neither the stretch after region 0 nor the clip writes argument 6. -/
theorem W6_arg6 (c : Dev nD) : W6 m ρ c (Proc.devRef .tc main_arg6) = m ((c.tc : Thread nD τ).loc main_arg6) := by
  dsimp only [W6, W5, hostOps1_1, hostOps1]
  after_results_simp
  exact W4_arg6 m ρ c

/-- Neither the stretch after region 0 nor the clip writes argument 7. -/
theorem W6_arg7 (c : Dev nD) : W6 m ρ c (Proc.devRef .tc main_arg7) = m ((c.tc : Thread nD τ).loc main_arg7) := by
  dsimp only [W6, W5, hostOps1_1, hostOps1]
  after_results_simp
  exact W4_arg7 m ρ c

/-- The two projection matrices side by side. -/
theorem W7_v50 (c : Dev nD) : W7 m ρ c (Proc.devRef .tc main_v50) = Spec.wcat (m ((c.tc : Thread nD τ).loc main_arg4)) (m ((c.tc : Thread nD τ).loc main_arg6)) := by
  have h4 := W6_arg4 m ρ c
  have h6 := W6_arg6 m ρ c
  dsimp only [W7, hostOps1_2]
  generalize W6 m ρ c = U at h4 h6 ⊢
  after_results
  rw [h4, h6]
  rfl

/-- The two biases end to end. -/
theorem W7_v51 (c : Dev nD) : W7 m ρ c (Proc.devRef .tc main_v51) = Spec.bcat (m ((c.tc : Thread nD τ).loc main_arg5)) (m ((c.tc : Thread nD τ).loc main_arg7)) := by
  have h5 := W6_arg5 m ρ c
  have h7 := W6_arg7 m ρ c
  dsimp only [W7, hostOps1_2]
  generalize W6 m ρ c = U at h5 h7 ⊢
  after_results
  rw [h5, h7]
  rfl

theorem W7_v3 (c : Dev nD) : W7 m ρ c (Proc.devRef .tc main_v3) = Spec.srcV (m ((c.tc : Thread nD τ).loc main_arg1)) := by
  dsimp only [W7, W6, W5, hostOps1_2, hostOps1_1, hostOps1]
  after_results_simp
  exact W4_v3 m ρ c
theorem W7_v6 (c : Dev nD) : W7 m ρ c (Proc.devRef .tc main_v6) = Spec.dstV (m ((c.tc : Thread nD τ).loc main_arg1)) := by
  dsimp only [W7, W6, W5, hostOps1_2, hostOps1_1, hostOps1]
  after_results_simp
  exact W4_v6 m ρ c
theorem W7_v31 (c : Dev nD) : W7 m ρ c (Proc.devRef .tc main_v31) = Spec.nrm (F := F) (m ((c.tc : Thread nD τ).loc main_arg1)) := by
  dsimp only [W7, W6, W5, hostOps1_2, hostOps1_1, hostOps1]
  after_results_simp
  exact W4_v31 m ρ c

/-! ## At region 1's exit -/

theorem W8_v52 (c : Dev nD) : W8 m ρ c (Proc.devRef .tc main_v52) = (dat1 (V7 m ρ) c).arrAt 2 cfg1.N := W8_arr m ρ c 2

theorem W8_v3 (c : Dev nD) : W8 m ρ c (Proc.devRef .tc main_v3) = Spec.srcV (m ((c.tc : Thread nD τ).loc main_arg1)) :=
  (W8_of_ne m ρ c main_v3 (by decide)).trans (W7_v3 m ρ c)
theorem W8_v6 (c : Dev nD) : W8 m ρ c (Proc.devRef .tc main_v6) = Spec.dstV (m ((c.tc : Thread nD τ).loc main_arg1)) :=
  (W8_of_ne m ρ c main_v6 (by decide)).trans (W7_v6 m ρ c)
theorem W8_v31 (c : Dev nD) : W8 m ρ c (Proc.devRef .tc main_v31) = Spec.nrm (F := F) (m ((c.tc : Thread nD τ).loc main_arg1)) :=
  (W8_of_ne m ρ c main_v31 (by decide)).trans (W7_v31 m ρ c)
theorem W8_v51 (c : Dev nD) : W8 m ρ c (Proc.devRef .tc main_v51) = Spec.bcat (m ((c.tc : Thread nD τ).loc main_arg5)) (m ((c.tc : Thread nD τ).loc main_arg7)) :=
  (W8_of_ne m ρ c main_v51 (by decide)).trans (W7_v51 m ρ c)

/-! ## After the last stretch: the two results over whatever region 1 left in its result array -/

theorem W9_v69 (c : Dev nD) :
    W9 m ρ c (Proc.devRef .tc main_v69)
      = Spec.resMu (W8 m ρ c (Proc.devRef .tc main_v52)) (m ((c.tc : Thread nD τ).loc main_arg1)) (m ((c.tc : Thread nD τ).loc main_arg5)) (m ((c.tc : Thread nD τ).loc main_arg7)) := by
  dsimp only [W9, hostOps2]
  after_results_simp
  rw [W8_v3, W8_v6, W8_v31, W8_v51]
  rfl

theorem W9_v70 (c : Dev nD) :
    W9 m ρ c (Proc.devRef .tc main_v70)
      = Spec.resLs (W8 m ρ c (Proc.devRef .tc main_v52)) (m ((c.tc : Thread nD τ).loc main_arg1)) (m ((c.tc : Thread nD τ).loc main_arg5)) (m ((c.tc : Thread nD τ).loc main_arg7)) := by
  dsimp only [W9, hostOps2]
  after_results_simp
  rw [W8_v3, W8_v6, W8_v31, W8_v51]
  rfl

end Stages

end Cert.KernelIdeal.Hand

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.LibMm.lean ====
/-
  The product of an M×K by a K×N matrix over the extended reals as ONE function of the two matrices, entry by entry
  the sum over the contracted coordinate — and the two spellings that compute it: the host's contraction and the
  matrix unit's product into a zero accumulator, each at the plain dimension numbers.
-/
import proofs.«134741_j25598005084887_1_alg».proof.Proof.LibRowDims

noncomputable section

open scoped BigOperators

namespace Idealize.ShloMosaic.RowDims

open Idealize.ShloMosaic Idealize.ShloMosaic.ValueIdx

/-- Entry `(p, q)` of the product is `∑ k, A (p, k) · B (k, q)`. -/
def mm (M K N : Nat) {φ₁ φ₂ : FTy} (A : FVec Ideal ⟨2, ![M, K]⟩ φ₁) (B : FVec Ideal ⟨2, ![K, N]⟩ φ₂) : FVec Ideal ⟨2, ![M, N]⟩ .f32 :=
  fun i => ∑ k : Fin K, A (ix2 (i 0) k) * B (ix2 k (i 1))

theorem mm_apply {M K N : Nat} {φ₁ φ₂ : FTy} (A : FVec Ideal ⟨2, ![M, K]⟩ φ₁) (B : FVec Ideal ⟨2, ![K, N]⟩ φ₂) (p : Fin M) (q : Fin N) :
    mm M K N A B (ix2 p q) = ∑ k : Fin K, A (ix2 p k) * B (ix2 k q) := rfl

/-- The host's contraction of the two matrices is their product. -/
theorem dotGeneral_plain_eq_mm {M K N : Nat} {φ₁ φ₂ : FTy} (prec : Option ContractPrecision) (sched : HostSchedule)
    (A : FVec Ideal ⟨2, ![M, K]⟩ φ₁) (B : FVec Ideal ⟨2, ![K, N]⟩ φ₂) :
    FloatOps.dotGeneral (DotDims.plain M K N) prec sched A B = mm M K N A B := by
  funext i
  rw [eq_ix2 i]
  exact dotGeneral_plain_apply prec sched A B (i 0) (i 1)

/-- The matrix unit's product into the zero accumulator is their product. -/
theorem matmul_plain_zero_eq_mm {M K N : Nat} {φ₁ φ₂ : FTy} (prec : Option ContractPrecision)
    (A : FVec Ideal ⟨2, ![M, K]⟩ φ₁) (B : FVec Ideal ⟨2, ![K, N]⟩ φ₂) :
    FloatOps.matmul (DotDims.plain M K N) prec A B (constant ⟨2, ![M, N]⟩ .f32 0x00000000#32) = mm M K N A B := by
  funext i
  rw [eq_ix2 i]
  exact matmul_plain_zero_apply prec A B (i 0) (i 1)

end Idealize.ShloMosaic.RowDims

end
-- ==== Proof.RegionValue.lean ====
/-
  What each of the two pipelined regions leaves in its result array: row block t of the result is the product of row
  block t of the left matrix with the whole right matrix, the twenty row blocks tile the array, so the array ends as
  the product of the two matrices as the region finds them.
-/
import proofs.«134741_j25598005084887_1_alg».proof.Proof.Gen.KernelIdeal.Frame
import proofs.«134741_j25598005084887_1_alg».proof.Proof.LibMm
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Idealize.ShloMosaic.RowDims

variable (V : (c : Dev nD) → (b : Ref sig .tc) → Buf (Elt Ideal) ((c : Thread nD τ).loc b))

/-- The zero offsets of a whole-block access, as the constant function. -/
theorem lin_hz : (![0, 0] : Fin 2 → Nat) = fun _ => 0 := funext fun a => by fin_cases a <;> rfl

/-- Entry (p, q) of the product of a row block X with a matrix Y is the entry of the product of the whole matrices
    A and B at any array index i whose row of A is row p of X and whose column of B is column q of Y. -/
theorem lin_mm_rows {M M' K N : Nat} (A : FVec Ideal ⟨2, ![M, K]⟩ .f32) (B : FVec Ideal ⟨2, ![K, N]⟩ .f32)
    (X : FVec Ideal ⟨2, ![M', K]⟩ .f32) (Y : FVec Ideal ⟨2, ![K, N]⟩ .f32) (p : Fin M') (q : Fin N)
    (i : (⟨2, ![M, N]⟩ : Shape).Idx)
    (hX : ∀ k : Fin K, X (ix2 p k) = A (ix2 (i 0) k)) (hY : ∀ k : Fin K, Y (ix2 k q) = B (ix2 k (i 1))) :
    mm M' K N (φ₁ := .f32) (φ₂ := .f32) X Y (ix2 p q) = mm M K N (φ₁ := .f32) (φ₂ := .f32) A B i := by
  show ∑ k : Fin K, X (ix2 p k) * Y (ix2 k q) = ∑ k : Fin K, A (ix2 (i 0) k) * B (ix2 k (i 1))
  exact Finset.sum_congr rfl fun k _ => by rw [hX k, hY k]

/-! ## Region 0: x · W1, twenty row blocks of 5000 rows -/

/-- The printed index maps over the grid: the left window and the result window are at row block t, column block 0;
    the right window stays at block (0, 0). -/
theorem lin0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's payload: narrowing to bf16 is the identity on extended reals, and the matrix unit's product into the
    zero accumulator at the plain dimension numbers is the matrix product of the two loaded blocks. -/
theorem lin0_pay (x0 : Vec Ideal S5000x256 .f32) (x1 : Vec Ideal S256x128 .f32) :
    k0_pay1 (F := Ideal) x0 x1 = mm 5000 256 128 (φ₁ := .f32) (φ₂ := .f32) x0 x1 := by
  unfold k0_pay1
  exact matmul_plain_zero_eq_mm none _ _

/-- What grid point t writes back to the result array is row block t of the product of the two arrays the region
    finds: the left window's block is rows 5000 t … 5000 t + 4999 of the left matrix, the right window's block is
    the whole right matrix, and the body's payload is their product. -/
theorem lin0_flushed (c : Dev nD) (t : Fin cfg0.N) :
    (dat0 (F := Ideal) V c).flushed 2 t = ((cfg0.win 2).blk t).view.read (Elt Ideal) (mm 100000 256 128 (φ₁ := .f32) (φ₂ := .f32) (V c main_arg0) (V c main_arg2)) := by
  show (cfg0.win 2).cut (grid0.coords t) ((dat0 V c).after 2 t) = _
  rw [after0_2]
  unfold out0_2
  rw [View.canon_unit_zero lin_hz]
  simp only [View.ld_unit_zero (S := S5000x256) lin_hz, View.ld_unit_zero (S := S256x128) lin_hz]
  rw [lin0_pay]
  obtain ⟨e00, e01, e10, e11, e20, e21⟩ := lin0_idx t
  funext j
  obtain ⟨p, q, rfl⟩ : ∃ (p : Fin 5000) (q : Fin 128), j = ix2 p q := ⟨j 0, j 1, eq_ix2 j⟩
  refine lin_mm_rows (V c main_arg0) (V c main_arg2) (iblk0 V c 0 t) (iblk0 V c 1 t) p q (((cfg0.win 2).blk t).view.emb (ix2 p q)) (fun k => ?_) (fun k => ?_)
  · -- the left block's entry (p, k) is the left matrix's entry (5000 t + p, k)
    show V c main_arg0 (((cfg0.win 0).blk t).view.emb (ix2 p k)) = V c main_arg0 (ix2 (((cfg0.win 2).blk t).view.emb (ix2 p q) 0) k)
    refine congrArg (V c main_arg0) (funext fun a => Fin.ext ?_)
    match a with
    | ⟨0, _⟩ => show win0_0.index t (0 : Fin 2) * 5000 + 1 * p.val = win0_2.index t (0 : Fin 2) * 5000 + 1 * p.val; rw [e00, e20]
    | ⟨1, _⟩ => show win0_0.index t (1 : Fin 2) * 256 + 1 * k.val = k.val; rw [e01]; omega
  · -- the right block's entry (k, q) is the right matrix's entry (k, q)
    show V c main_arg2 (((cfg0.win 1).blk t).view.emb (ix2 k q)) = V c main_arg2 (ix2 k (((cfg0.win 2).blk t).view.emb (ix2 p q) 1))
    refine congrArg (V c main_arg2) (funext fun a => Fin.ext ?_)
    match a with
    | ⟨0, _⟩ => show win0_1.index t (0 : Fin 2) * 256 + 1 * k.val = k.val; rw [e10]; omega
    | ⟨1, _⟩ => show win0_1.index t (1 : Fin 2) * 128 + 1 * q.val = win0_2.index t (1 : Fin 2) * 128 + 1 * q.val; rw [e11, e21]

/-- An index of the result array is in point t's block iff each coordinate is in the block's range on its axis. -/
theorem lin0_mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The twenty row blocks cover the result array: row r is in the block of point r / 5000. -/
theorem lin0_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e20, e21⟩ := lin0_idx t
  refine ⟨t, flush0_2 t, ?_⟩
  rw [lin0_mem_blk]
  intro a
  match a with
  | ⟨0, _⟩ => show win0_2.index t (0 : Fin 2) * 5000 ≤ (i 0).val ∧ (i 0).val < win0_2.index t (0 : Fin 2) * 5000 + 5000; rw [e20, ht]; omega
  | ⟨1, _⟩ => show win0_2.index t (1 : Fin 2) * 128 ≤ (i 1).val ∧ (i 1).val < win0_2.index t (1 : Fin 2) * 128 + 128; rw [e21]; omega

/-- Region 0's result array after its last grid point: x · W1 of the arrays the region finds. -/
theorem lin0_final (c : Dev nD) :
    (dat0 (F := Ideal) V c).arrAt 2 cfg0.N = mm 100000 256 128 (φ₁ := .f32) (φ₂ := .f32) (V c main_arg0) (V c main_arg2) :=
  (dat0 (F := Ideal) V c).arrAt_eq_of_cover 2 (mm 100000 256 128 (φ₁ := .f32) (φ₂ := .f32) (V c main_arg0) (V c main_arg2))
    (fun t _ => lin0_flushed V c t) lin0_cover

/-! ## Region 1: h · [Wmu | Wls], twenty row blocks of 5000 rows -/

/-- The printed index maps over the grid: the left window and the result window are at row block t, column block 0;
    the right window stays at block (0, 0). -/
theorem lin1_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's payload: a reshape to the same shape and narrowing to bf16 are both the identity on extended reals,
    and the matrix unit's product into the zero accumulator at the plain dimension numbers is the matrix product of
    the two loaded blocks. -/
theorem lin1_pay (x0 : Vec Ideal S5000x128 .f32) (x1 : Vec Ideal S128x128 .f32) :
    k1_pay1 (F := Ideal) x0 x1 = mm 5000 128 128 (φ₁ := .f32) (φ₂ := .f32) x0 x1 := by
  unfold k1_pay1
  simp only [shapeCast_self]
  exact matmul_plain_zero_eq_mm none _ _

/-- What grid point t writes back to the result array is row block t of the product of the two arrays the region
    finds: the left window's block is rows 5000 t … 5000 t + 4999 of the left matrix, the right window's block is
    the whole right matrix, and the body's payload is their product. -/
theorem lin1_flushed (c : Dev nD) (t : Fin cfg1.N) :
    (dat1 (F := Ideal) V c).flushed 2 t = ((cfg1.win 2).blk t).view.read (Elt Ideal) (mm 100000 128 128 (φ₁ := .f32) (φ₂ := .f32) (V c main_v49) (V c main_v50)) := by
  show (cfg1.win 2).cut (grid1.coords t) ((dat1 V c).after 2 t) = _
  rw [after1_2]
  unfold out1_2
  rw [View.canon_unit_zero lin_hz]
  simp only [View.ld_unit_zero (S := S5000x128) lin_hz, View.ld_unit_zero (S := S128x128) lin_hz]
  rw [lin1_pay]
  obtain ⟨e00, e01, e10, e11, e20, e21⟩ := lin1_idx t
  funext j
  obtain ⟨p, q, rfl⟩ : ∃ (p : Fin 5000) (q : Fin 128), j = ix2 p q := ⟨j 0, j 1, eq_ix2 j⟩
  refine lin_mm_rows (V c main_v49) (V c main_v50) (iblk1 V c 0 t) (iblk1 V c 1 t) p q (((cfg1.win 2).blk t).view.emb (ix2 p q)) (fun k => ?_) (fun k => ?_)
  · -- the left block's entry (p, k) is the left matrix's entry (5000 t + p, k)
    show V c main_v49 (((cfg1.win 0).blk t).view.emb (ix2 p k)) = V c main_v49 (ix2 (((cfg1.win 2).blk t).view.emb (ix2 p q) 0) k)
    refine congrArg (V c main_v49) (funext fun a => Fin.ext ?_)
    match a with
    | ⟨0, _⟩ => show win1_0.index t (0 : Fin 2) * 5000 + 1 * p.val = win1_2.index t (0 : Fin 2) * 5000 + 1 * p.val; rw [e00, e20]
    | ⟨1, _⟩ => show win1_0.index t (1 : Fin 2) * 128 + 1 * k.val = k.val; rw [e01]; omega
  · -- the right block's entry (k, q) is the right matrix's entry (k, q)
    show V c main_v50 (((cfg1.win 1).blk t).view.emb (ix2 k q)) = V c main_v50 (ix2 k (((cfg1.win 2).blk t).view.emb (ix2 p q) 1))
    refine congrArg (V c main_v50) (funext fun a => Fin.ext ?_)
    match a with
    | ⟨0, _⟩ => show win1_1.index t (0 : Fin 2) * 128 + 1 * k.val = k.val; rw [e10]; omega
    | ⟨1, _⟩ => show win1_1.index t (1 : Fin 2) * 128 + 1 * q.val = win1_2.index t (1 : Fin 2) * 128 + 1 * q.val; rw [e11, e21]

/-- An index of the result array is in point t's block iff each coordinate is in the block's range on its axis. -/
theorem lin1_mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v52).slice (win1_2.rect t)).set ↔ _
  rw [View.set_slice_whole, Rect.mem_set_unit]
  exact Iff.rfl

/-- The twenty row blocks cover the result array: row r is in the block of point r / 5000. -/
theorem lin1_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, e20, e21⟩ := lin1_idx t
  refine ⟨t, flush1_2 t, ?_⟩
  rw [lin1_mem_blk]
  intro a
  match a with
  | ⟨0, _⟩ => show win1_2.index t (0 : Fin 2) * 5000 ≤ (i 0).val ∧ (i 0).val < win1_2.index t (0 : Fin 2) * 5000 + 5000; rw [e20, ht]; omega
  | ⟨1, _⟩ => show win1_2.index t (1 : Fin 2) * 128 ≤ (i 1).val ∧ (i 1).val < win1_2.index t (1 : Fin 2) * 128 + 128; rw [e21]; omega

/-- Region 1's result array after its last grid point: h · [Wmu | Wls] of the arrays the region finds. -/
theorem lin1_final (c : Dev nD) :
    (dat1 (F := Ideal) V c).arrAt 2 cfg1.N = mm 100000 128 128 (φ₁ := .f32) (φ₂ := .f32) (V c main_v49) (V c main_v50) :=
  (dat1 (F := Ideal) V c).arrAt_eq_of_cover 2 (mm 100000 128 128 (φ₁ := .f32) (φ₂ := .f32) (V c main_v49) (V c main_v50))
    (fun t _ => lin1_flushed V c t) lin1_cover

end Cert.KernelIdeal.Hand

end
-- ==== Proof.KernelOut.lean ====
/-
  The kernel's two result buffers after the run, as functions of the argument arrays: each region's result array is the
  product of the two matrices it is handed (x · W1, then hidden · [Wmu | Wls]), so the results are the left and the right
  64 columns of aggregate(hidden · [Wmu | Wls]) + [bmu | bls], hidden = relu(aggregate(x · W1) + b1).
-/
import proofs.«134741_j25598005084887_1_alg».proof.Proof.KernelValue
import proofs.«134741_j25598005084887_1_alg».proof.Proof.LibMm
import proofs.«134741_j25598005084887_1_alg».proof.Proof.RegionValue

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen Idealize.ShloMosaic.RowDims

section Ideal

variable (m : (ℓ : Loc nD τ sig) → Buf (Elt Ideal) ℓ) (ρ : Dev nD → PrngReg)

/-- The hidden layer the kernel computes: relu(aggregate(x · W1) + b1), x · W1 the product region 0 leaves. -/
abbrev hiddenK (c : Dev nD) : FVec Ideal S100000x128 .f32 :=
  Spec.hid (mm 100000 256 128 (φ₁ := .f32) (φ₂ := .f32) (m ((c.tc : Thread nD τ).loc main_arg0)) (m ((c.tc : Thread nD τ).loc main_arg2))) (m ((c.tc : Thread nD τ).loc main_arg1)) (m ((c.tc : Thread nD τ).loc main_arg3))

/-- Region 0 leaves x · W1. -/
theorem W4_v32_eq (c : Dev nD) :
    W4 m ρ c (Proc.devRef .tc main_v32) = mm 100000 256 128 (φ₁ := .f32) (φ₂ := .f32) (m ((c.tc : Thread nD τ).loc main_arg0)) (m ((c.tc : Thread nD τ).loc main_arg2)) := by
  rw [W4_v32, lin0_final (V3 m ρ) c]
  show mm 100000 256 128 (φ₁ := .f32) (φ₂ := .f32) (W3 m ρ c (Proc.devRef .tc main_arg0)) (W3 m ρ c (Proc.devRef .tc main_arg2)) = _
  rw [W3_arg0, W3_arg2]

/-- Region 1 leaves hidden · [Wmu | Wls]. -/
theorem W8_v52_eq (c : Dev nD) :
    W8 m ρ c (Proc.devRef .tc main_v52)
      = mm 100000 128 128 (φ₁ := .f32) (φ₂ := .f32) (hiddenK m c) (Spec.wcat (m ((c.tc : Thread nD τ).loc main_arg4)) (m ((c.tc : Thread nD τ).loc main_arg6))) := by
  rw [W8_v52, lin1_final (V7 m ρ) c]
  show mm 100000 128 128 (φ₁ := .f32) (φ₂ := .f32) (W7 m ρ c (Proc.devRef .tc main_v49)) (W7 m ρ c (Proc.devRef .tc main_v50)) = _
  rw [W7_v49, W7_v50, W4_v32_eq]

/-- The first result buffer after the run. -/
theorem out0_eq (c : Dev nD) :
    W9 m ρ c (Proc.devRef .tc main_v69)
      = Spec.resMu (mm 100000 128 128 (φ₁ := .f32) (φ₂ := .f32) (hiddenK m c) (Spec.wcat (m ((c.tc : Thread nD τ).loc main_arg4)) (m ((c.tc : Thread nD τ).loc main_arg6))))
          (m ((c.tc : Thread nD τ).loc main_arg1)) (m ((c.tc : Thread nD τ).loc main_arg5)) (m ((c.tc : Thread nD τ).loc main_arg7)) := by
  rw [W9_v69, W8_v52_eq]

/-- The second result buffer after the run. -/
theorem out1_eq (c : Dev nD) :
    W9 m ρ c (Proc.devRef .tc main_v70)
      = Spec.resLs (mm 100000 128 128 (φ₁ := .f32) (φ₂ := .f32) (hiddenK m c) (Spec.wcat (m ((c.tc : Thread nD τ).loc main_arg4)) (m ((c.tc : Thread nD τ).loc main_arg6))))
          (m ((c.tc : Thread nD τ).loc main_arg1)) (m ((c.tc : Thread nD τ).loc main_arg5)) (m ((c.tc : Thread nD τ).loc main_arg7)) := by
  rw [W9_v70, W8_v52_eq]

end Ideal

end Cert.KernelIdeal.Hand

end
-- ==== Proof.RSpec.lean ====
/-
  The reference's program as functions of whole arrays, in its own operations: the edge list with self-loops, the degree
  normalisation, the normalised aggregation over 128 and over 64 columns, the hidden layer, and one graph convolution per
  result (x · W, aggregate, add the bias).
-/
import proofs.«134741_j25598005084887_1_alg».proof.ReferenceIdeal

noncomputable section

namespace Cert.ReferenceIdeal.Spec

open Idealize.ShloMosaic Cert.ReferenceIdeal Cert.ReferenceIdeal.Facts₀

variable {F : FTy → Type} [FloatOps F] [Facts]

/-- The zero word broadcast over a node-by-feature table of 128 columns: what an aggregation starts from. -/
def zeros128 : FVec F S100000x128 .f32 := broadcastInDim S100000x128 ![] bcast_S_S100000x128 (constant S_ .f32 0x00000000#32)

/-- Edge sources with one self-loop per node appended: row 0 of the edge list, then 0 … N − 1. -/
def srcV (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Edge targets with the same self-loops: row 1 of the edge list, then 0 … N − 1. -/
def dstV (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative index counts from the end of the node axis. -/
def wrap (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- An index vector as a one-column table of start indices. -/
def col (v : IVec S1700000 32) : IVec S1700000x1 32 := broadcastInDim S1700000x1 ![0] bcast_S1700000_S1700000x1_0 v

/-- In-degrees (self-loop included): ones added at the targets. -/
def deg (e : IVec S2x1600000 32) : FVec F S100000 .f32 :=
  Host.scatterAdd scatter_S100000_S1700000x1_S1700000_n_0_0_1 (broadcastInDim S100000 ![] bcast_S_S100000 (constant S_ .f32 0x00000000#32)) (col (dstV e)) (broadcastInDim S1700000 ![] bcast_S_S1700000 (constant S_ .f32 0x3F800000#32))

/-- deg^(−1/2) where the degree is positive (the degree taken at least 1 under the root), 0 elsewhere. -/
def dinv (e : IVec S2x1600000 32) : FVec F S100000 .f32 :=
  select (cmpf (F := F) .ogt (deg e) (broadcastInDim S100000 ![] bcast_S_S100000 (constant S_ .f32 0x00000000#32))) (Host.rsqrt (maximumf (deg e) (broadcastInDim S100000 ![] bcast_S_S100000 (constant S_ .f32 0x3F800000#32)))) (broadcastInDim S100000 ![] bcast_S_S100000 (id (constant S_ .f32 0x00000000#32)))

/-- The symmetric normalisation of an edge: dinv at its source times dinv at its target. -/
def nrm (e : IVec S2x1600000 32) : FVec F S1700000 .f32 :=
  mulf (Host.gather gather_S100000_S1700000x1_S1700000_n_0_n_n_0_1_1 (dinv e) (col (wrap (srcV e)))) (Host.gather gather_S100000_S1700000x1_S1700000_n_0_n_n_0_1_1 (dinv e) (col (wrap (dstV e))))

/-- One aggregation over 128 columns: each edge's source row of `L`, scaled by the edge's normalisation, added into its target row. -/
def agg128 (L : FVec F S100000x128 .f32) (e : IVec S2x1600000 32) : FVec F S100000x128 .f32 :=
  Host.scatterAdd scatter_S100000x128_S1700000x1_S1700000x128_1_0_0_1 zeros128 (col (dstV e)) (mulf (Host.gather gather_S100000x128_S1700000x1_S1700000x128_1_0_n_n_0_1_1128 L (col (wrap (srcV e)))) (broadcastInDim S1700000x128 ![0, 1] bcast_S1700000x1_S1700000x128_0_1 (broadcastInDim S1700000x1 ![0] bcast_S1700000_S1700000x1_0 (nrm e))))

/-- A bias of 128 entries repeated down the node axis. -/
def bias128 (b : FVec F S128 .f32) : FVec F S100000x128 .f32 :=
  broadcastInDim S100000x128 ![0, 1] bcast_S1x128_S100000x128_0_1 (broadcastInDim S1x128 ![1] bcast_S128_S1x128_1 b)

/-- The hidden layer from its linear part `L1`: aggregate, add the bias, clip below at 0. -/
def hid (L1 : FVec F S100000x128 .f32) (e : IVec S2x1600000 32) (b1 : FVec F S128 .f32) : FVec F S100000x128 .f32 :=
  maximumf (addf (agg128 L1 e) (bias128 b1)) zeros128

/-- The first layer's linear part: x · W1. -/
def lin1 (x : FVec F S100000x256 .f32) (W1 : FVec F S256x128 .f32) : FVec F S100000x128 .f32 :=
  Host.dotGeneral dot_S100000x256_S256x128_S100000x128_1_0_0_1_n_n none x W1

/-- One aggregation over 64 columns. -/
def agg64 (L : FVec F S100000x64 .f32) (e : IVec S2x1600000 32) : FVec F S100000x64 .f32 :=
  Host.scatterAdd scatter_S100000x64_S1700000x1_S1700000x64_1_0_0_1 (broadcastInDim S100000x64 ![] bcast_S_S100000x64 (constant S_ .f32 0x00000000#32)) (col (dstV e)) (mulf (Host.gather gather_S100000x64_S1700000x1_S1700000x64_1_0_n_n_0_1_164 L (col (wrap (srcV e)))) (broadcastInDim S1700000x64 ![0, 1] bcast_S1700000x1_S1700000x64_0_1 (broadcastInDim S1700000x1 ![0] bcast_S1700000_S1700000x1_0 (nrm e))))

/-- A bias of 64 entries repeated down the node axis. -/
def bias64 (b : FVec F S64 .f32) : FVec F S100000x64 .f32 :=
  broadcastInDim S100000x64 ![0, 1] bcast_S1x64_S100000x64_0_1 (broadcastInDim S1x64 ![1] bcast_S64_S1x64_1 b)

/-- One output head: h · W, aggregated, plus its bias. -/
def head (h : FVec F S100000x128 .f32) (W : FVec F S128x64 .f32) (b : FVec F S64 .f32) (e : IVec S2x1600000 32) : FVec F S100000x64 .f32 :=
  addf (agg64 (Host.dotGeneral dot_S100000x128_S128x64_S100000x64_1_0_0_1_n_n none h W) e) (bias64 b)

end Cert.ReferenceIdeal.Spec

end
-- ==== Proof.RefValue.lean ====
/-
  The reference's two results, as its run states them (each buffer at the composed term of the argument arrays), are
  the two output heads over one hidden layer: result 0 the head of (Wmu, bmu), result 1 the head of (Wls, bls), both
  over relu(aggregate(x · W1) + b1) with the same edge list.
-/
import proofs.«134741_j25598005084887_1_alg».proof.Proof.RefRun
import proofs.«134741_j25598005084887_1_alg».proof.Proof.RSpec

set_option maxRecDepth 16384

noncomputable section

namespace Cert.RefValue

open Idealize.ShloMosaic Idealize.ShloMosaic.TcCoe Idealize.SL.Sem
open Cert.ReferenceIdeal Cert.ReferenceIdeal.Value

variable {F : FTy → Type} [FloatOps F]
variable (m : (ℓ : Loc nD τ sig) → Buf (Elt F) ℓ)

/-- The hidden layer of the reference from its arguments: relu(aggregate(x · W1) + b1). -/
abbrev hidden (c : Dev nD) : FVec F S100000x128 .f32 :=
  Spec.hid (Spec.lin1 (m ((c.tc : Thread nD τ).loc main_arg0)) (m ((c.tc : Thread nD τ).loc main_arg2)))
    (m ((c.tc : Thread nD τ).loc main_arg1)) (m ((c.tc : Thread nD τ).loc main_arg3))

/-- Result 0 is the head of (Wmu, bmu) over the hidden layer. -/
theorem res0_eq (c : Dev nD) :
    res_main_v66 m c = Spec.head (hidden m c) (m ((c.tc : Thread nD τ).loc main_arg4)) (m ((c.tc : Thread nD τ).loc main_arg5))
      (m ((c.tc : Thread nD τ).loc main_arg1)) := by
  unfold res_main_v66
  rfl

/-- Result 1 is the head of (Wls, bls) over the hidden layer. -/
theorem res1_eq (c : Dev nD) :
    res_main_v83 m c = Spec.head (hidden m c) (m ((c.tc : Thread nD τ).loc main_arg6)) (m ((c.tc : Thread nD τ).loc main_arg7))
      (m ((c.tc : Thread nD τ).loc main_arg1)) := by
  unfold res_main_v83
  rfl

end Cert.RefValue

end
-- ==== Proof.Bridge.lean ====
/-
  Two identifications between the programs' host sides. The hidden layer is one function of its linear part, the edge
  list and the bias in both programs (the same operations in the same order). And the reference's first linear part,
  the host's contraction of x with W1, is their matrix product.
-/
import proofs.«134741_j25598005084887_1_alg».proof.Proof.KSpec
import proofs.«134741_j25598005084887_1_alg».proof.Proof.RSpec
import proofs.«134741_j25598005084887_1_alg».proof.Proof.LibMm

set_option maxRecDepth 16384

noncomputable section

open Idealize.ShloMosaic Idealize.ShloMosaic.RowDims

namespace Cert.Bridge

variable [hK : Cert.KernelIdeal.Facts] [hR : Cert.ReferenceIdeal.Facts]

/-- The two programs' hidden layers agree on every linear part, edge list and bias. -/
theorem hid_eq {F : FTy → Type} [FloatOps F] (L : FVec F Cert.KernelIdeal.S100000x128 .f32) (e : IVec Cert.KernelIdeal.S2x1600000 32)
    (b1 : FVec F Cert.KernelIdeal.S128 .f32) :
    Cert.ReferenceIdeal.Spec.hid L e b1 = Cert.KernelIdeal.Spec.hid L e b1 := rfl

/-- x · W1 as the host contracts it is the matrix product. -/
theorem lin1_eq_mm (x : FVec Ideal Cert.ReferenceIdeal.S100000x256 .f32) (W1 : FVec Ideal Cert.ReferenceIdeal.S256x128 .f32) :
    Cert.ReferenceIdeal.Spec.lin1 (F := Ideal) x W1 = mm 100000 256 128 x W1 := by
  unfold Cert.ReferenceIdeal.Spec.lin1
  exact dotGeneral_plain_eq_mm none .single x W1

end Cert.Bridge

end
-- ==== Proof.Heads.lean ====
/-
  The second layer computed on the two projections side by side is the two output heads: column j < 64 of
  h · [Wmu | Wls] is column j of h · Wmu and column 64 + j is column j of h · Wls; gathering rows, scaling a row by
  its edge's normalisation and adding rows into rows all act column by column; and entry j < 64 of [bmu | bls] is
  bmu's, entry 64 + j is bls's. So the left 64 columns of the fused result are the first head and the right 64 the second.
-/
import proofs.«134741_j25598005084887_1_alg».proof.Proof.KSpec
import proofs.«134741_j25598005084887_1_alg».proof.Proof.RSpec
import proofs.«134741_j25598005084887_1_alg».proof.Proof.LibMm
import Idealize.ShloMosaic.Lib.ValueIdx
import Idealize.ShloMosaic.Lib.Pipeline.Value

set_option maxRecDepth 16384

noncomputable section

open scoped BigOperators
open Idealize.ShloMosaic Idealize.ShloMosaic.ValueIdx Idealize.ShloMosaic.RowDims

namespace Cert.Heads

variable [hK : Cert.KernelIdeal.Facts] [hR : Cert.ReferenceIdeal.Facts]

/-- A scatter-add of gathered rows scaled entry by entry, read at (a, b): the table's entry plus, over the edges r whose
    target is a, row (source of r) of L at column b times the scale at (r, b). -/
theorem scatterGather_apply {N C R w : Nat} (hN : 0 < N)
    (wfs : ScatterDims.WF ⟨2, ![N, C]⟩ ⟨2, ![R, 1]⟩ ⟨2, ![R, C]⟩ [1] [0] [0] 1)
    (wfg : GatherDims.WF ⟨2, ![N, C]⟩ ⟨2, ![R, 1]⟩ ⟨2, ![R, C]⟩ [1] [0] [] [0] [] 1 ![1, C])
    (Z L : FVec Ideal ⟨2, ![N, C]⟩ .f32) (D S : IVec ⟨2, ![R, 1]⟩ w) (M : FVec Ideal ⟨2, ![R, C]⟩ .f32)
    (a : Fin N) (b : Fin C) :
    Host.scatterAdd (rowScatter N C R wfs) Z D (mulf (Host.gather (rowGather N C R wfg) L S) M) (ix2 a b)
      = Z (ix2 a b) + ∑ r : Fin R, if (D (ix2 r 0)).toInt = (a.val : Int)
          then L (ix2 (clampRow N hN (S (ix2 r 0))) b) * M (ix2 r b) else 0 := by
  refine (rowScatterAdd_apply wfs Z D _ a b).trans ?_
  refine congrArg (fun t => Z (ix2 a b) + t) (Finset.sum_congr rfl fun r _ => ?_)
  rw [mulf_apply, rowGather_apply hN wfg L S r b]

/-- A vector over the edges broadcast to a one-column table and then across C columns reads its entry r at (r, c). -/
theorem bcastCols_apply {α : Type} {R C : Nat}
    (h1 : (⟨2, ![R, 1]⟩ : Shape).BroadcastsInDim ⟨2, ![R, C]⟩ ![0, 1])
    (h2 : (⟨1, ![R]⟩ : Shape).BroadcastsInDim ⟨2, ![R, 1]⟩ ![0])
    (v : (⟨1, ![R]⟩ : Shape).Idx → α) (r : Fin R) (c : Fin C) :
    broadcastInDim ⟨2, ![R, C]⟩ ![0, 1] h1 (broadcastInDim ⟨2, ![R, 1]⟩ ![0] h2 v) (ix2 r c) = v (ix1 r) := by
  refine (broadcastInDim_apply ![0, 1] h1 _ (ix2 r c) (ix2 r 0) fun d => ?_).trans ?_
  · match d with
    | ⟨0, _⟩ =>
      show r.val = if R = 1 then 0 else r.val
      split
      · have := r.isLt; omega
      · rfl
    | ⟨1, _⟩ => rfl
  · refine broadcastInDim_apply ![0] h2 v (ix2 r 0) (ix1 r) fun d => ?_
    match d with
    | ⟨0, _⟩ =>
      show r.val = if R = 1 then 0 else r.val
      split
      · have := r.isLt; omega
      · rfl

/-- A vector of C entries broadcast to one row and then down N rows reads its entry c at (a, c). -/
theorem bcastRows_apply {α : Type} {N C : Nat}
    (h1 : (⟨2, ![1, C]⟩ : Shape).BroadcastsInDim ⟨2, ![N, C]⟩ ![0, 1])
    (h2 : (⟨1, ![C]⟩ : Shape).BroadcastsInDim ⟨2, ![1, C]⟩ ![1])
    (v : (⟨1, ![C]⟩ : Shape).Idx → α) (a : Fin N) (c : Fin C) :
    broadcastInDim ⟨2, ![N, C]⟩ ![0, 1] h1 (broadcastInDim ⟨2, ![1, C]⟩ ![1] h2 v) (ix2 a c) = v (ix1 c) := by
  refine (broadcastInDim_apply ![0, 1] h1 _ (ix2 a c) (ix2 0 c) fun d => ?_).trans ?_
  · match d with
    | ⟨0, _⟩ => rfl
    | ⟨1, _⟩ =>
      show c.val = if C = 1 then 0 else c.val
      split
      · have := c.isLt; omega
      · rfl
  · refine broadcastInDim_apply ![1] h2 v (ix2 0 c) (ix1 c) fun d => ?_
    match d with
    | ⟨0, _⟩ =>
      show c.val = if C = 1 then 0 else c.val
      split
      · have := c.isLt; omega
      · rfl

/-- Column b' < 64 of [Wmu | Wls] is Wmu's column b'. -/
theorem wcat_left (Wmu Wls : FVec Ideal Cert.KernelIdeal.S128x64 .f32) (k : Fin 128) (b : Fin 64) (b' : Fin 128)
    (hb : b'.val = b.val) : Cert.KernelIdeal.Spec.wcat Wmu Wls (ix2 k b') = Wmu (ix2 k b) := by
  unfold Cert.KernelIdeal.Spec.wcat
  refine concatenate_pair_apply_left 1 Wmu Wls _ (ix2 k b') rfl (ix2 k b) fun d => ?_
  match d with
  | ⟨0, _⟩ => rfl
  | ⟨1, _⟩ => exact hb.symm

/-- Column 64 + b of [Wmu | Wls] is Wls's column b. -/
theorem wcat_right (Wmu Wls : FVec Ideal Cert.KernelIdeal.S128x64 .f32) (k : Fin 128) (b : Fin 64) (b' : Fin 128)
    (hb : b'.val = 64 + b.val) : Cert.KernelIdeal.Spec.wcat Wmu Wls (ix2 k b') = Wls (ix2 k b) := by
  unfold Cert.KernelIdeal.Spec.wcat
  refine concatenate_pair_apply_right 1 Wmu Wls _ (ix2 k b') rfl rfl (ix2 k b) (fun d hd => ?_) ?_
  · match d with
    | ⟨0, _⟩ => rfl
    | ⟨1, _⟩ => exact absurd rfl hd
  · show b.val + 64 = b'.val
    omega

/-- Entry b' < 64 of [bmu | bls] is bmu's entry b'. -/
theorem bcat_left (bmu bls : FVec Ideal Cert.KernelIdeal.S64 .f32) (b : Fin 64) (b' : Fin 128)
    (hb : b'.val = b.val) : Cert.KernelIdeal.Spec.bcat bmu bls (ix1 b') = bmu (ix1 b) := by
  unfold Cert.KernelIdeal.Spec.bcat
  refine concatenate_pair_apply_left 0 bmu bls _ (ix1 b') rfl (ix1 b) fun d => ?_
  match d with
  | ⟨0, _⟩ => exact hb.symm

/-- Entry 64 + b of [bmu | bls] is bls's entry b. -/
theorem bcat_right (bmu bls : FVec Ideal Cert.KernelIdeal.S64 .f32) (b : Fin 64) (b' : Fin 128)
    (hb : b'.val = 64 + b.val) : Cert.KernelIdeal.Spec.bcat bmu bls (ix1 b') = bls (ix1 b) := by
  unfold Cert.KernelIdeal.Spec.bcat
  refine concatenate_pair_apply_right 0 bmu bls _ (ix1 b') rfl rfl (ix1 b) (fun d hd => ?_) ?_
  · match d with
    | ⟨0, _⟩ => exact absurd rfl hd
  · show b.val + 64 = b'.val
    omega

/-- The edge normalisations, the target column and the source column are the same arrays in the two programs. -/
theorem nrm_eq (e : IVec Cert.KernelIdeal.S2x1600000 32) :
    Cert.KernelIdeal.Spec.nrm (F := Ideal) e = Cert.ReferenceIdeal.Spec.nrm (F := Ideal) e := rfl
theorem dst_eq (e : IVec Cert.KernelIdeal.S2x1600000 32) :
    Cert.KernelIdeal.Spec.col (Cert.KernelIdeal.Spec.dstV e) = Cert.ReferenceIdeal.Spec.col (Cert.ReferenceIdeal.Spec.dstV e) := rfl
theorem src_eq (e : IVec Cert.KernelIdeal.S2x1600000 32) :
    Cert.KernelIdeal.Spec.col (Cert.KernelIdeal.Spec.wrap (Cert.KernelIdeal.Spec.srcV e))
      = Cert.ReferenceIdeal.Spec.col (Cert.ReferenceIdeal.Spec.wrap (Cert.ReferenceIdeal.Spec.srcV e)) := rfl

/-- The 128-column aggregation at (a, c): zero plus, over the edges into a, the source row of L at c times the edge's normalisation. -/
theorem agg128_apply (L : FVec Ideal Cert.KernelIdeal.S100000x128 .f32) (e : IVec Cert.KernelIdeal.S2x1600000 32)
    (a : Fin 100000) (c : Fin 128) :
    Cert.KernelIdeal.Spec.agg128 (F := Ideal) L e (ix2 a c)
      = Ideal.ofBits .f32 0x00000000#32 + ∑ r : Fin 1700000,
          if (Cert.KernelIdeal.Spec.col (Cert.KernelIdeal.Spec.dstV e) (ix2 r 0)).toInt = (a.val : Int)
          then L (ix2 (clampRow 100000 (by decide)
                (Cert.KernelIdeal.Spec.col (Cert.KernelIdeal.Spec.wrap (Cert.KernelIdeal.Spec.srcV e)) (ix2 r 0))) c)
              * Cert.KernelIdeal.Spec.nrm (F := Ideal) e (ix1 r)
          else 0 := by
  unfold Cert.KernelIdeal.Spec.agg128
  refine (scatterGather_apply (N := 100000) (C := 128) (R := 1700000) (by decide)
    Cert.KernelIdeal.Facts₀.scatter_S100000x128_S1700000x1_S1700000x128_1_0_0_1_wf
    Cert.KernelIdeal.Facts₀.gather_S100000x128_S1700000x1_S1700000x128_1_0_n_n_0_1_1128_wf
    Cert.KernelIdeal.Spec.zeros128 L (Cert.KernelIdeal.Spec.col (Cert.KernelIdeal.Spec.dstV e))
    (Cert.KernelIdeal.Spec.col (Cert.KernelIdeal.Spec.wrap (Cert.KernelIdeal.Spec.srcV e))) _ a c).trans ?_
  refine congrArg₂ (· + ·) rfl (Finset.sum_congr rfl fun r _ => ?_)
  rw [bcastCols_apply]

/-- The 64-column aggregation at (a, c): the same sum over the same edges. -/
theorem agg64_apply (L : FVec Ideal Cert.ReferenceIdeal.S100000x64 .f32) (e : IVec Cert.ReferenceIdeal.S2x1600000 32)
    (a : Fin 100000) (c : Fin 64) :
    Cert.ReferenceIdeal.Spec.agg64 (F := Ideal) L e (ix2 a c)
      = Ideal.ofBits .f32 0x00000000#32 + ∑ r : Fin 1700000,
          if (Cert.ReferenceIdeal.Spec.col (Cert.ReferenceIdeal.Spec.dstV e) (ix2 r 0)).toInt = (a.val : Int)
          then L (ix2 (clampRow 100000 (by decide)
                (Cert.ReferenceIdeal.Spec.col (Cert.ReferenceIdeal.Spec.wrap (Cert.ReferenceIdeal.Spec.srcV e)) (ix2 r 0))) c)
              * Cert.ReferenceIdeal.Spec.nrm (F := Ideal) e (ix1 r)
          else 0 := by
  unfold Cert.ReferenceIdeal.Spec.agg64
  refine (scatterGather_apply (N := 100000) (C := 64) (R := 1700000) (by decide)
    Cert.ReferenceIdeal.Facts₀.scatter_S100000x64_S1700000x1_S1700000x64_1_0_0_1_wf
    Cert.ReferenceIdeal.Facts₀.gather_S100000x64_S1700000x1_S1700000x64_1_0_n_n_0_1_164_wf
    _ L (Cert.ReferenceIdeal.Spec.col (Cert.ReferenceIdeal.Spec.dstV e))
    (Cert.ReferenceIdeal.Spec.col (Cert.ReferenceIdeal.Spec.wrap (Cert.ReferenceIdeal.Spec.srcV e))) _ a c).trans ?_
  refine congrArg₂ (· + ·) rfl (Finset.sum_congr rfl fun r _ => ?_)
  rw [bcastCols_apply]

/-- The reference's product h · W is the matrix product. -/
theorem dot_eq_mm (h : FVec Ideal Cert.ReferenceIdeal.S100000x128 .f32) (W : FVec Ideal Cert.ReferenceIdeal.S128x64 .f32) :
    Host.dotGeneral Cert.ReferenceIdeal.dot_S100000x128_S128x64_S100000x64_1_0_0_1_n_n none h W = mm 100000 128 64 h W :=
  dotGeneral_plain_eq_mm none .single h W

/-- A slice of whole rows starting at column o reads the operand's column o + b at (a, b). -/
theorem sliceCols_apply {α : Type} {N C C' : Nat} (o : Nat) (hs : (⟨2, ![N, C]⟩ : Shape).Slices ![0, o] ⟨2, ![N, C']⟩)
    (x : (⟨2, ![N, C]⟩ : Shape).Idx → α) (a : Fin N) (b : Fin C') (b' : Fin C) (hb : b'.val = o + b.val) :
    extractStridedSlice ⟨2, ![N, C']⟩ ![0, o] x hs (ix2 a b) = x (ix2 a b') := by
  refine extractStridedSlice_apply ![0, o] x hs (ix2 a b) (ix2 a b') fun d => ?_
  match d with
  | ⟨0, _⟩ => exact (Nat.zero_add _).symm
  | ⟨1, _⟩ => exact hb

/-- Column b' of h · [Wmu | Wls] is column b of h · W when column b' of [Wmu | Wls] is W's column b: the sums over the
    contracted coordinate agree term by term. -/
theorem mm_wcat_col (h : FVec Ideal Cert.KernelIdeal.S100000x128 .f32) (Wmu Wls W : FVec Ideal Cert.KernelIdeal.S128x64 .f32)
    (b : Fin 64) (b' : Fin 128)
    (hW : ∀ k : Fin 128, Cert.KernelIdeal.Spec.wcat Wmu Wls (ix2 k b') = W (ix2 k b)) (p : Fin 100000) :
    mm 100000 128 128 h (Cert.KernelIdeal.Spec.wcat Wmu Wls) (ix2 p b') = mm 100000 128 64 h W (ix2 p b) := by
  rw [mm_apply, mm_apply]
  exact Finset.sum_congr rfl fun k _ => by rw [hW k]

/-- Entry (a, b') of the fused second layer is entry (a, b) of the head of W, bb, whenever column b' of [Wmu | Wls] is
    W's column b and entry b' of [bmu | bls] is bb's entry b: the two sums over the edges into a agree term by term. -/
theorem out2_eq_head_at (h : FVec Ideal Cert.KernelIdeal.S100000x128 .f32) (Wmu Wls W : FVec Ideal Cert.KernelIdeal.S128x64 .f32)
    (bmu bls bb : FVec Ideal Cert.KernelIdeal.S64 .f32) (e : IVec Cert.KernelIdeal.S2x1600000 32)
    (a : Fin 100000) (b : Fin 64) (b' : Fin 128)
    (hW : ∀ k : Fin 128, Cert.KernelIdeal.Spec.wcat Wmu Wls (ix2 k b') = W (ix2 k b))
    (hb : Cert.KernelIdeal.Spec.bcat bmu bls (ix1 b') = bb (ix1 b)) :
    Cert.KernelIdeal.Spec.out2 (F := Ideal) (mm 100000 128 128 h (Cert.KernelIdeal.Spec.wcat Wmu Wls)) e bmu bls (ix2 a b')
      = Cert.ReferenceIdeal.Spec.head (F := Ideal) h W bb e (ix2 a b) := by
  unfold Cert.KernelIdeal.Spec.out2 Cert.ReferenceIdeal.Spec.head
  rw [addf_apply, addf_apply, agg128_apply, agg64_apply, dot_eq_mm]
  unfold Cert.KernelIdeal.Spec.bias128 Cert.ReferenceIdeal.Spec.bias64
  rw [bcastRows_apply, bcastRows_apply, hb, ← dst_eq, ← src_eq, ← nrm_eq]
  refine congrArg (· + bb (ix1 b)) (congrArg (Ideal.ofBits .f32 0x00000000#32 + ·) (Finset.sum_congr rfl fun r _ => ?_))
  rw [mm_wcat_col h Wmu Wls W b b' hW]

/-- Columns 0 … 63 of the fused second layer are the head of Wmu, bmu. -/
theorem resMu_eq_head (h : FVec Ideal Cert.KernelIdeal.S100000x128 .f32) (Wmu Wls : FVec Ideal Cert.KernelIdeal.S128x64 .f32)
    (bmu bls : FVec Ideal Cert.KernelIdeal.S64 .f32) (e : IVec Cert.KernelIdeal.S2x1600000 32) :
    Cert.KernelIdeal.Spec.resMu (F := Ideal) (mm 100000 128 128 h (Cert.KernelIdeal.Spec.wcat Wmu Wls)) e bmu bls
      = Cert.ReferenceIdeal.Spec.head (F := Ideal) h Wmu bmu e := by
  funext i
  obtain ⟨a, b, rfl⟩ : ∃ (a : Fin 100000) (b : Fin 64), i = ix2 a b := ⟨i 0, i 1, eq_ix2 i⟩
  -- the slice at offset 0 reads column b of the 128
  have hb' : b.val < 128 := by have := b.isLt; omega
  unfold Cert.KernelIdeal.Spec.resMu
  refine (sliceCols_apply (N := 100000) (C := 128) (C' := 64) 0 _ _ a b (⟨b.val, hb'⟩ : Fin 128) (Nat.zero_add b.val).symm).trans ?_
  exact out2_eq_head_at h Wmu Wls Wmu bmu bls bmu e a b _ (fun k => wcat_left Wmu Wls k b _ rfl) (bcat_left bmu bls b _ rfl)

/-- Columns 64 … 127 of the fused second layer are the head of Wls, bls. -/
theorem resLs_eq_head (h : FVec Ideal Cert.KernelIdeal.S100000x128 .f32) (Wmu Wls : FVec Ideal Cert.KernelIdeal.S128x64 .f32)
    (bmu bls : FVec Ideal Cert.KernelIdeal.S64 .f32) (e : IVec Cert.KernelIdeal.S2x1600000 32) :
    Cert.KernelIdeal.Spec.resLs (F := Ideal) (mm 100000 128 128 h (Cert.KernelIdeal.Spec.wcat Wmu Wls)) e bmu bls
      = Cert.ReferenceIdeal.Spec.head (F := Ideal) h Wls bls e := by
  funext i
  obtain ⟨a, b, rfl⟩ : ∃ (a : Fin 100000) (b : Fin 64), i = ix2 a b := ⟨i 0, i 1, eq_ix2 i⟩
  -- the slice at offset 64 reads column 64 + b of the 128
  have hb' : 64 + b.val < 128 := by have := b.isLt; omega
  unfold Cert.KernelIdeal.Spec.resLs
  refine (sliceCols_apply (N := 100000) (C := 128) (C' := 64) 64 _ _ a b (⟨64 + b.val, hb'⟩ : Fin 128) rfl).trans ?_
  exact out2_eq_head_at h Wmu Wls Wls bmu bls bls e a b _ (fun k => wcat_right Wmu Wls k b _ rfl) (bcat_right bmu bls b _ rfl)

end Cert.Heads

end
-- ==== Proof.lean ====
/- The proof of `Cert.Claim` (proofs.«134741_j25598005084887_1_alg».proof.Defs): a two-layer graph convolution, kernel against reference, over
   the extended reals.
   Both programs build the same edge list (the given edges plus one self-loop per node), the same symmetric degree
   normalisation, and aggregate by gathering source rows, scaling each by its edge's normalisation and adding it into
   its target row. They differ in two places only. The kernel computes each linear part x · W on the matrix unit, row
   block by row block, where the reference contracts on the host: over the extended reals both are the matrix product.
   And the kernel runs the second layer ONCE on the two projections laid side by side, [Wmu | Wls] with bias
   [bmu | bls], and cuts the left and right 64 columns out at the end, where the reference runs it once per projection:
   a product's column, a gathered row's column, a scaled row's column and a sum of rows' column each depend on that
   column of the operand alone, so the left 64 columns are the head of (Wmu, bmu) and the right 64 the head of
   (Wls, bls), term by term — no law of the extended reals beyond reading each operation at an index is used, and the
   precondition is never opened.
   Modules: KernelRun (the kernel's run with the two result buffers named), KernelValue and KernelOut (those buffers as
   functions of the arguments, through RegionValue: what each pipelined region leaves), RefRun and RefValue (the
   reference's run and its two results as the two heads), Bridge (the hidden layers agree; x · W1 is the product), Heads
   (the fused second layer's column halves are the two heads); KSpec / RSpec name the host operations as functions of
   whole arrays, LibRowDims / LibMm read products, row gathers and row scatter-adds at an index. -/
import proofs.«134741_j25598005084887_1_alg».proof.Defs
import proofs.«134741_j25598005084887_1_alg».proof.Proof.Gen.Kernel
import proofs.«134741_j25598005084887_1_alg».proof.Proof.Gen.Kernel.Skeleton
import proofs.«134741_j25598005084887_1_alg».proof.Proof.Gen.Kernel.Launch
import proofs.«134741_j25598005084887_1_alg».proof.Proof.Gen.Kernel.Points
import proofs.«134741_j25598005084887_1_alg».proof.Proof.Gen.Kernel.Frame
import proofs.«134741_j25598005084887_1_alg».proof.Proof.Gen.KernelIdeal
import proofs.«134741_j25598005084887_1_alg».proof.Proof.Gen.KernelIdeal.Skeleton
import proofs.«134741_j25598005084887_1_alg».proof.Proof.Gen.KernelIdeal.Launch
import proofs.«134741_j25598005084887_1_alg».proof.Proof.Gen.KernelIdeal.Points
import proofs.«134741_j25598005084887_1_alg».proof.Proof.Gen.KernelIdeal.Frame
import proofs.«134741_j25598005084887_1_alg».proof.Proof.Gen.ReferenceIdeal
import proofs.«134741_j25598005084887_1_alg».proof.Proof.Gen.Pre_finite_inputs
import proofs.«134741_j25598005084887_1_alg».proof.Proof.KernelRun
import proofs.«134741_j25598005084887_1_alg».proof.Proof.KernelOut
import proofs.«134741_j25598005084887_1_alg».proof.Proof.RefRun
import proofs.«134741_j25598005084887_1_alg».proof.Proof.RefValue
import proofs.«134741_j25598005084887_1_alg».proof.Proof.Bridge
import proofs.«134741_j25598005084887_1_alg».proof.Proof.Heads
import Idealize.ShloMosaic.Adequacy
import Idealize.ShloMosaic.Init

set_option maxRecDepth 16384

noncomputable section

namespace Cert.Proof

open Idealize.ShloMosaic Idealize.ShloMosaic.TcCoe Idealize.SL.Sem

section Claims

variable [hK : Cert.Kernel.Facts] [hKI : Cert.KernelIdeal.Facts] [hRI : Cert.ReferenceIdeal.Facts] [hPre : Cert.Pre_finite_inputs.Facts]

/-- The word-level kernel runs and leaves its arguments: the generated frame. -/
theorem frame_k : Cert.frame_Kernel := fun m ρ _ => Cert.Kernel.Gen.frame m ρ

/-- The idealized kernel runs and leaves its arguments: the generated frame. -/
theorem frame_ki : Cert.frame_KernelIdeal := fun m ρ _ => Cert.KernelIdeal.Gen.frame m ρ

/-- The reference runs and leaves its arguments: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- The reference's hidden layer from memory `m'` is the kernel's from `m` when the arguments agree. -/
theorem hidden_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.RefValue.hidden m' c = Cert.KernelIdeal.Hand.hiddenK m c := by
  unfold Cert.RefValue.hidden Cert.KernelIdeal.Hand.hiddenK
  rw [e0, e1, e2, e3, Cert.Bridge.lin1_eq_mm]
  exact Cert.Bridge.hid_eq _ _ _

/-- From memories that agree on the arguments both programs run and end with equal results: the kernel's two result
    buffers hold the left and right column halves of the fused second layer, which are the reference's two heads. -/
theorem algebraic : Cert.algebraic_KernelIdeal_ReferenceIdeal := by
  intro m ρ m' ρ' _ hagree
  refine ⟨fun c => Cert.KernelIdeal.Gen.W9 m ρ c (Proc.devRef .tc Cert.KernelIdeal.main_v69),
    fun c => Cert.KernelIdeal.Gen.W9 m ρ c (Proc.devRef .tc Cert.KernelIdeal.main_v70),
    Cert.KernelIdeal.Gen.run_named (F := Ideal) m ρ, ?_⟩
  refine (θ_run Cert.ReferenceIdeal.defs _ _).mono (fun _ h c => ?_) (Cert.ReferenceIdeal.Value.run (F := Ideal) m' ρ')
  obtain ⟨h0, h1, hargs⟩ := h c
  obtain ⟨e0, e1, e2, e3, e4, e5, e6, e7⟩ := hagree c
  -- result 0: the head of (Wmu, bmu) is the left column half of the fused second layer
  have k0 : Cert.ReferenceIdeal.Value.res_main_v66 m' c
      = Cert.KernelIdeal.Gen.W9 m ρ c (Proc.devRef .tc Cert.KernelIdeal.main_v69) := by
    rw [Cert.RefValue.res0_eq, Cert.KernelIdeal.Hand.out0_eq, hidden_eq m m' c e0 e1 e2 e3, e1, e4, e5]
    exact (Cert.Heads.resMu_eq_head _ _ _ _ _ _).symm
  -- result 1: the head of (Wls, bls) is the right column half
  have k1 : Cert.ReferenceIdeal.Value.res_main_v83 m' c
      = Cert.KernelIdeal.Gen.W9 m ρ c (Proc.devRef .tc Cert.KernelIdeal.main_v70) := by
    rw [Cert.RefValue.res1_eq, Cert.KernelIdeal.Hand.out1_eq, hidden_eq m m' c e0 e1 e2 e3, e1, e6, e7]
    exact (Cert.Heads.resLs_eq_head _ _ _ _ _ _).symm
  exact ⟨h0.trans k0, h1.trans k1, hargs⟩

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
